-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 1 := constantI S_ 1 1#1
  let main_v36 : IVec S_ 1 := (fun x v => Host.reduce IntOp.andi x v reducesTo_S2x800000_S_d0_1 h_S_) main_v35 main_c_13
  let main_v37 : IVec S_ 1 := andi main_v33 main_v36
  let main_c_14 : IVec S_ 32 := constantI S_ 32 49999#32
  let main_v38 : IVec S2x800000 32 := broadcastInDim S2x800000 ![] bcast_S_S2x800000 main_c_14
  let main_v39 : IVec S2x800000 1 := cmpi .sle main_arg1 main_v38
  let main_c_15 : IVec S_ 1 := constantI S_ 1 1#1
  let main_v40 : IVec S_ 1 := (fun x v => Host.reduce IntOp.andi x v reducesTo_S2x800000_S_d0_1 h_S_) main_v39 main_c_15
  let main_v41 : IVec S_ 1 := andi main_v37 main_v40
  main_v41

def fn_part1 {F : FTy → Type} [FloatOps F] (main_arg1 : IVec S2x800000 32) (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S50000x64 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x64 : Shape := ⟨2, ![1, 64]⟩
abbrev S5000x64 : Shape := ⟨2, ![5000, 64]⟩
abbrev S5000x128 : Shape := ⟨2, ![5000, 128]⟩
abbrev S50000 : Shape := ⟨1, ![50000]⟩
abbrev S50000x1 : Shape := ⟨2, ![50000, 1]⟩

abbrev nBuf : Space → Nat
  | .hbm => 78
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S1, .i32⟩
  | .hbm, ⟨21, _⟩ => ⟨S_, .i32⟩
  | .hbm, ⟨22, _⟩ => ⟨S800000x1, .i32⟩
  | .hbm, ⟨23, _⟩ => ⟨S800000x1, .i1⟩
  | .hbm, ⟨24, _⟩ => ⟨S1x1, .i32⟩
  | .hbm, ⟨25, _⟩ => ⟨S800000x1, .i32⟩
  | .hbm, ⟨26, _⟩ => ⟨S800000x1, .i1⟩
  | .hbm, ⟨27, _⟩ => ⟨S800000x1, .i1⟩
  | .hbm, ⟨28, _⟩ => ⟨S_, .i1⟩
  | .hbm, ⟨29, _⟩ => ⟨S800000, .i1⟩
  | .hbm, ⟨30, _⟩ => ⟨S800000x64, .f32⟩
  | .hbm, ⟨31, _⟩ => ⟨S800000x64, .i1⟩
  | .hbm, ⟨32, _⟩ => ⟨S_, .f32⟩
  | .hbm, ⟨33, _⟩ => ⟨S800000x64, .f32⟩
  | .hbm, ⟨34, _⟩ => ⟨S800000x64, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S1, .i32⟩
  | .hbm, ⟨44, _⟩ => ⟨S_, .i32⟩
  | .hbm, ⟨45, _⟩ => ⟨S800000x1, .i32⟩
  | .hbm, ⟨46, _⟩ => ⟨S800000x1, .i1⟩
  | .hbm, ⟨47, _⟩ => ⟨S1x1, .i32⟩
  | .hbm, ⟨48, _⟩ => ⟨S800000x1, .i32⟩
  | .hbm, ⟨49, _⟩ => ⟨S800000x1, .i1⟩
  | .hbm, ⟨50, _⟩ => ⟨S800000x1, .i1⟩
  | .hbm, ⟨51, _⟩ => ⟨S_, .i1⟩
  | .hbm, ⟨52, _⟩ => ⟨S800000, .i1⟩
  | .hbm, ⟨53, _⟩ => ⟨S800000x64, .f32⟩
  | .hbm, ⟨54, _⟩ => ⟨S800000x64, .i1⟩
  | .hbm, ⟨55, _⟩ => ⟨S_, .f32⟩
  | .hbm, ⟨56, _⟩ => ⟨S800000x64, .f32⟩
  | .hbm, ⟨57, _⟩ => ⟨S800000x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S800000x64, .f32⟩
  | .hbm, ⟨62, _⟩ => ⟨S_, .f32⟩
  | .hbm, ⟨63, _⟩ => ⟨S50000x64, .f32⟩
  | .hbm, ⟨64, _⟩ => ⟨S800000x1, .i32⟩
  | .hbm, ⟨65, _⟩ => ⟨S50000x64, .f32⟩
  | .hbm, ⟨66, _⟩ => ⟨S_, .f32⟩
  | .hbm, ⟨67, _⟩ => ⟨S800000, .f32⟩
  | .hbm, ⟨68, _⟩ => ⟨S_, .f32⟩
  | .hbm, ⟨69, _⟩ => ⟨S50000, .f32⟩
  | .hbm, ⟨70, _⟩ => ⟨S800000x1, .i32⟩
  | .hbm, ⟨71, _⟩ => ⟨S50000, .f32⟩
  | .hbm, ⟨72, _⟩ => ⟨S_, .f32⟩
  | .hbm, ⟨73, _⟩ => ⟨S50000, .f32⟩
  | .hbm, ⟨74, _⟩ => ⟨S50000, .f32⟩
  | .hbm, ⟨75, _⟩ => ⟨S50000x1, .f32⟩
  | .hbm, ⟨76, _⟩ => ⟨S50000x64, .f32⟩
  | .hbm, ⟨77, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v4 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_cst : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_cst_0 : Ref sig .tc := ⟨.hbm, 66, rfl⟩
abbrev main_v13 : Ref sig .tc := ⟨.hbm, 67, rfl⟩
abbrev main_cst_1 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_cst_2 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![160], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S800000x64.size a
  hwx0_0 : ∀ i : grid0.Coords, EltTy.bits .f32 = 32 ∨ (Rect.block (s := S800000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S800000x64.size a
  hwx0_1 : ∀ i : grid0.Coords, EltTy.bits .f32 = 32 ∨ (Rect.block (s := S800000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S800000x64.size a
  hwx0_8 : ∀ i : grid0.Coords, EltTy.bits .f32 = 32 ∨ (Rect.block (s := S800000x64) S5000x64.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_v4) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x64 : Shape := ⟨2, ![1, 64]⟩
abbrev S50000 : Shape := ⟨1, ![50000]⟩
abbrev S50000x1 : Shape := ⟨2, ![50000, 1]⟩

abbrev nBuf : Space → Nat
  | .hbm => 71
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x128, .f32⟩
  | .hbm, ⟨31, _⟩ => ⟨S800000x64, .f32⟩
  | .hbm, ⟨32, _⟩ => ⟨S1x64, .f32⟩
  | .hbm, ⟨33, _⟩ => ⟨S800000x64, .f32⟩
  | .hbm, ⟨34, _⟩ => ⟨S800000x64, .f32⟩
  | .hbm, ⟨35, _⟩ => ⟨S_, .f32⟩
  | .hbm, ⟨36, _⟩ => ⟨S800000x64, .f32⟩
  | .hbm, ⟨37, _⟩ => ⟨S800000x64, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S800000x64, .f32⟩
  | .hbm, ⟨43, _⟩ => ⟨S1x64, .f32⟩
  | .hbm, ⟨44, _⟩ => ⟨S800000x64, .f32⟩
  | .hbm, ⟨45, _⟩ => ⟨S800000x64, .f32⟩
  | .hbm, ⟨46, _⟩ => ⟨S800000x64, .f32⟩
  | .hbm, ⟨47, _⟩ => ⟨S800000x64, .f32⟩
  | .hbm, ⟨48, _⟩ => ⟨S_, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S800000x64, .f32⟩
  | .hbm, ⟨53, _⟩ => ⟨S800000x64, .f32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_5 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x128_S128x64_S800000x64_1_0_0_1_n_n_wf : DotDims.WF S800000x128 S128x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.IndexDomain.lean ====
/-
  What the precondition says of the edge list: every entry of the `2 × 800000` index array is a row number of the
  50000-row table, `0 ≤ idx ≤ 49999` as signed words. (The precondition's other conjuncts, the finiteness of the
  float arrays, are not needed by this certificate: both programs form the same sums in the same grouping.)
-/
import proofs.«401317_j14448269984518_4_alg».proof.Pre_finite_inputs
import Idealize.ShloMosaic.Lib.ReduceAll
import Idealize.ShloMosaic.Lib.ValueIdx

noncomputable section

namespace Cert.Pre_finite_inputs.Domain

open Idealize.ShloMosaic Idealize.ShloMosaic.ValueIdx Cert.Pre_finite_inputs

variable [Cert.Pre_finite_inputs.Facts]
variable {F : FTy → Type} [FloatOps F]

instance : Subsingleton S_.Idx := ⟨fun a b => funext fun d => d.elim0⟩

/-- Under the precondition every edge endpoint lies in `[0, 49999]`. -/
theorem index_range (a0 : FVec F S50000x64 .f32) (a1 : IVec S2x800000 32) (a2 : FVec F S128x64 .f32) (a3 : FVec F S64 .f32)
    (a4 : FVec F S64x64 .f32) (a5 : FVec F S64 .f32) (a6 : FVec F S64x64 .f32) (a7 : FVec F S64 .f32)
    (h : fn (F := F) a0 a1 a2 a3 a4 a5 a6 a7 = fun _ => 1#1) (i : S2x800000.Idx) :
    IntOp.cmpi .sge (a1 i) 0#32 = 1#1 ∧ IntOp.cmpi .sle (a1 i) 49999#32 = 1#1 := by
  have h0 := congrFun h ix0
  dsimp only [fn, fn_part1, fn_part2] at h0
  obtain ⟨h1, h2⟩ := IntOp.andi_eq_one.1 h0
  obtain ⟨_, h3⟩ := IntOp.andi_eq_one.1 h1
  exact ⟨Host.reduce_andi_all _ _ _ _ _ h3 i, Host.reduce_andi_all _ _ _ _ _ h2 i⟩

end Cert.Pre_finite_inputs.Domain

end
-- ==== Proof.EdgeGate.lean ====
/-
  The per-edge gated interaction, as one function of plain arrays.

  For an edge `e` with end nodes `s` and `d`, the pair row is the 128 numbers `x[s] ++ x[d]`. Three dense layers follow:
  `h = max (p · W1 + b1) 0`, `u = h · W2 + b2`, `g = logistic (u · Wg + bg)`, and the edge's 64 outputs are `u ⊙ g`.
  Every sum runs over the whole contraction axis in one go, on the extended reals; nothing here depends on the order of
  a sum, on finiteness, or on how the edges are cut into blocks.
-/
import Idealize.ShloMosaic.PureOps.Ideal
import Idealize.ShloMosaic.Lib.ValueIdx

noncomputable section

open scoped BigOperators

namespace Cert.EdgeGate

open Idealize.ShloMosaic Idealize.ShloMosaic.ValueIdx

/-- One dense layer at output column `j`: `(∑ k, x k · W k j) + b j`. -/
def dense {K N : ℕ} (x : Fin K → EReal) (W : Fin K → Fin N → EReal) (b : Fin N → EReal) (j : Fin N) : EReal :=
  (∑ k : Fin K, x k * W k j) + b j

/-- The hidden layer: a dense layer followed by `max · 0`. -/
def hidden (p : Fin 128 → EReal) (W1 : Fin 128 → Fin 64 → EReal) (b1 : Fin 64 → EReal) (k : Fin 64) : EReal :=
  max (dense p W1 b1 k) 0

/-- The interaction vector `u = h · W2 + b2`. -/
def interaction (p : Fin 128 → EReal) (W1 : Fin 128 → Fin 64 → EReal) (b1 : Fin 64 → EReal)
    (W2 : Fin 64 → Fin 64 → EReal) (b2 : Fin 64 → EReal) (j : Fin 64) : EReal :=
  dense (hidden p W1 b1) W2 b2 j

/-- One edge's output at column `j`: the interaction times the logistic of its gate logit. -/
def gateOut (p : Fin 128 → EReal) (W1 : Fin 128 → Fin 64 → EReal) (b1 : Fin 64 → EReal)
    (W2 : Fin 64 → Fin 64 → EReal) (b2 : Fin 64 → EReal) (Wg : Fin 64 → Fin 64 → EReal) (bg : Fin 64 → EReal)
    (j : Fin 64) : EReal :=
  interaction p W1 b1 W2 b2 j * Ideal.logistic (dense (interaction p W1 b1 W2 b2) Wg bg j)

/-- Row `e` of the two gathered arrays laid side by side: columns 0–63 from the first, 64–127 from the second. -/
def pairRow {n : ℕ} (xs xd : (⟨2, ![n, 64]⟩ : Shape).Idx → EReal) (e : Fin n) (l : Fin 128) : EReal :=
  if h : l.val < 64 then xs (ix2 e ⟨l.val, h⟩) else xd (ix2 e ⟨l.val - 64, by have := l.isLt; omega⟩)

/-- The gated interactions of `n` edges, from their two gathered row arrays and the six parameter arrays, element by
    element. The biases are given as vectors of length 64. -/
def gatedRows {n : ℕ} (xs xd : (⟨2, ![n, 64]⟩ : Shape).Idx → EReal)
    (W1 : (⟨2, ![128, 64]⟩ : Shape).Idx → EReal) (b1 : Fin 64 → EReal)
    (W2 : (⟨2, ![64, 64]⟩ : Shape).Idx → EReal) (b2 : Fin 64 → EReal)
    (Wg : (⟨2, ![64, 64]⟩ : Shape).Idx → EReal) (bg : Fin 64 → EReal) :
    (⟨2, ![n, 64]⟩ : Shape).Idx → EReal :=
  fun i => gateOut (pairRow xs xd (i 0)) (fun l k => W1 (ix2 l k)) b1 (fun l k => W2 (ix2 l k)) b2
    (fun l k => Wg (ix2 l k)) bg (i 1)

end Cert.EdgeGate

end
-- ==== Proof.KernelPayload.lean ====
/-
  The kernel body's one stored value, read at an element: at row `r` and column `j` of a block it is the gated
  interaction of that row's pair (the two input blocks' rows side by side) under the three parameter matrices and the
  three bias rows.
-/
import proofs.«401317_j14448269984518_4_alg».proof.Proof.Gen.KernelIdeal.Skeleton
import proofs.«401317_j14448269984518_4_alg».proof.Proof.EdgeGate
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The left operand's row coordinate under the 128-term contraction is the output's row. -/
private theorem lhs_128_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contraction coordinate. -/
private theorem lhs_128_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the contraction coordinate. -/
private theorem rhs_128_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the output's column. -/
private theorem rhs_128_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A product into a zero accumulator, read at `(r, j)`: the sum over the 128 contraction coordinates of row `r` of
    the left operand times column `j` of the right one. -/
private theorem matmul_128_apply (A : FVec Ideal S5000x128 .f32) (B : FVec Ideal S128x64 .f32) (r : Fin 5000) (j : Fin 64) :
    matmul dot_S5000x128_S128x64_S5000x64_1_0_0_1_n_n (some .fp32) A B (constant S5000x64 .f32 0x00000000#32) (ix2 r j)
      = ∑ k : Fin 128, A (ix2 r k) * B (ix2 k j) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r j) ((ValueIdx.contrEquiv1 dot_S5000x128_S128x64_S5000x64_1_0_0_1_n_n 128 rfl rfl).symm k) = ix2 r k := funext fun a => Fin.ext (by
    match a with
    | ⟨0, _⟩ => exact lhs_128_0 _ _
    | ⟨1, _⟩ => exact (lhs_128_1 _ _).trans hk)
  have er : dot_S5000x128_S128x64_S5000x64_1_0_0_1_n_n.rhsIdx (ix2 r j) ((ValueIdx.contrEquiv1 dot_S5000x128_S128x64_S5000x64_1_0_0_1_n_n 128 rfl rfl).symm k) = ix2 k j := funext fun a => Fin.ext (by
    match a with
    | ⟨0, _⟩ => exact (rhs_128_0 _ _).trans hk
    | ⟨1, _⟩ => exact rhs_128_1 _ _)
  rw [el, er]

/-- The left operand's row coordinate under the 64-term contraction is the output's row. -/
private theorem lhs_64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand's column coordinate is the contraction coordinate. -/
private theorem lhs_64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand's row coordinate is the contraction coordinate. -/
private theorem rhs_64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand's column coordinate is the output's column. -/
private theorem rhs_64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product into a zero accumulator, read at `(r, j)`: the sum over the 64 contraction coordinates of row `r` of
    the left operand times column `j` of the right one. -/
private theorem matmul_64_apply (A : FVec Ideal S5000x64 .f32) (B : FVec Ideal S64x64 .f32) (r : Fin 5000) (j : Fin 64) :
    matmul dot_S5000x64_S64x64_S5000x64_1_0_0_1_n_n (some .fp32) A B (constant S5000x64 .f32 0x00000000#32) (ix2 r j)
      = ∑ k : Fin 64, A (ix2 r k) * B (ix2 k j) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhs_64_0 _ _
    | ⟨1, _⟩ => exact (lhs_64_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhs_64_0 _ _).trans hk
    | ⟨1, _⟩ => exact rhs_64_1 _ _)
  rw [el, er]

/-- A bias row broadcast down the rows, read at `(r, j)`: the row's entry at column `j`. -/
private theorem bias_apply (b : Vec Ideal S1x64 .f32) (r : Fin 5000) (j : Fin 64) :
    broadcastTo S5000x64 (shapeCast S1x64 b shapeCasts_S1x64_S1x64) broadcasts_S1x64_S5000x64 (ix2 r j) = b (ix2 (0 : Fin 1) j) := by
  rw [shapeCast_self]
  exact broadcastTo_apply b broadcasts_S1x64_S5000x64 (ix2 r j) (ix2 (0 : Fin 1) j) (fun a => match a with
    | ⟨0, _⟩ => rfl
    | ⟨1, _⟩ => rfl)

/-- Two blocks laid side by side along the columns, read at `(r, l)`: the pair row. -/
private theorem concat_apply (a b : FVec Ideal S5000x64 .f32) (r : Fin 5000) (l : Fin 128) :
    concatenate S5000x128 1 [⟨S5000x64, a⟩, ⟨S5000x64, b⟩] concatenates_S5000x64_S5000x64_S5000x128_d1 (ix2 r l)
      = Cert.EdgeGate.pairRow a b r l := by
  unfold Cert.EdgeGate.pairRow
  split
  · rename_i h
    exact concatenate_pair_apply_left 1 a b concatenates_S5000x64_S5000x64_S5000x128_d1 (ix2 r l) rfl (ix2 r ⟨l.val, h⟩)
      (fun c => match c with
        | ⟨0, _⟩ => rfl
        | ⟨1, _⟩ => rfl)
  · rename_i h
    exact concatenate_pair_apply_right 1 a b concatenates_S5000x64_S5000x64_S5000x128_d1 (ix2 r l) rfl rfl
      (ix2 r ⟨l.val - 64, by have := l.isLt; omega⟩)
      (fun c hc => match c, hc with
        | ⟨0, _⟩, _ => rfl
        | ⟨1, _⟩, hc => absurd rfl hc)
      (by show l.val - 64 + 64 = l.val; omega)

/-- One dense layer of 128 inputs over a block, read at `(r, j)`: the dense layer of row `r`, whatever the rows of the
    left operand are known to be. -/
private theorem dense_128_apply (A : FVec Ideal S5000x128 .f32) (W : FVec Ideal S128x64 .f32) (b : Vec Ideal S1x64 .f32)
    (r : Fin 5000) (j : Fin 64) (p : Fin 128 → EReal) (hA : ∀ k : Fin 128, A (ix2 r k) = p k) :
    addf (matmul (φ₁ := .f32) (φ₂ := .f32) dot_S5000x128_S128x64_S5000x64_1_0_0_1_n_n (some .fp32) A W (constant S5000x64 .f32 0x00000000#32)) (broadcastTo S5000x64 (shapeCast S1x64 b shapeCasts_S1x64_S1x64) broadcasts_S1x64_S5000x64) (ix2 r j)
      = Cert.EdgeGate.dense p (fun l k => W (ix2 l k)) (fun k => b (ix2 (0 : Fin 1) k)) j := by
  rw [addf_apply, matmul_128_apply, bias_apply]
  exact congrArg (· + b (ix2 (0 : Fin 1) j)) (Finset.sum_congr rfl fun k _ => congrArg (· * W (ix2 k j)) (hA k))

/-- One dense layer of 64 inputs over a block, read at `(r, j)`. -/
private theorem dense_64_apply (A : FVec Ideal S5000x64 .f32) (W : FVec Ideal S64x64 .f32) (b : Vec Ideal S1x64 .f32)
    (r : Fin 5000) (j : Fin 64) (p : Fin 64 → EReal) (hA : ∀ k : Fin 64, A (ix2 r k) = p k) :
    addf (matmul (φ₁ := .f32) (φ₂ := .f32) dot_S5000x64_S64x64_S5000x64_1_0_0_1_n_n (some .fp32) A W (constant S5000x64 .f32 0x00000000#32)) (broadcastTo S5000x64 (shapeCast S1x64 b shapeCasts_S1x64_S1x64) broadcasts_S1x64_S5000x64) (ix2 r j)
      = Cert.EdgeGate.dense p (fun l k => W (ix2 l k)) (fun k => b (ix2 (0 : Fin 1) k)) j := by
  rw [addf_apply, matmul_64_apply, bias_apply]
  exact congrArg (· + b (ix2 (0 : Fin 1) j)) (Finset.sum_congr rfl fun k _ => congrArg (· * W (ix2 k j)) (hA k))

/-- The block of pair rows: the two input blocks side by side. -/
private def pairBlock (v0 v2 : Vec Ideal S5000x64 .f32) : FVec Ideal S5000x128 .f32 :=
  concatenate S5000x128 1 [⟨S5000x64, shapeCast S5000x64 v0 shapeCasts_S5000x64_S5000x64⟩,
    ⟨S5000x64, shapeCast S5000x64 v2 shapeCasts_S5000x64_S5000x64⟩] concatenates_S5000x64_S5000x64_S5000x128_d1

/-- The block of hidden rows. -/
private def hiddenBlock (v0 v2 : Vec Ideal S5000x64 .f32) (v5 : Vec Ideal S128x64 .f32) (v7 : Vec Ideal S1x64 .f32) :
    FVec Ideal S5000x64 .f32 :=
  maximumf (addf (matmul (φ₁ := .f32) (φ₂ := .f32) dot_S5000x128_S128x64_S5000x64_1_0_0_1_n_n (some .fp32) (pairBlock v0 v2) v5 (constant S5000x64 .f32 0x00000000#32)) (broadcastTo S5000x64 (shapeCast S1x64 v7 shapeCasts_S1x64_S1x64) broadcasts_S1x64_S5000x64))
    (broadcast S5000x64 (Scalar.ofBits (F := Ideal) .f32 0x00000000#32))

/-- The block of interaction rows. -/
private def interBlock (v0 v2 : Vec Ideal S5000x64 .f32) (v5 : Vec Ideal S128x64 .f32) (v7 : Vec Ideal S1x64 .f32)
    (v13 : Vec Ideal S64x64 .f32) (v15 : Vec Ideal S1x64 .f32) : FVec Ideal S5000x64 .f32 :=
  addf (matmul (φ₁ := .f32) (φ₂ := .f32) dot_S5000x64_S64x64_S5000x64_1_0_0_1_n_n (some .fp32) (hiddenBlock v0 v2 v5 v7) v13 (constant S5000x64 .f32 0x00000000#32)) (broadcastTo S5000x64 (shapeCast S1x64 v15 shapeCasts_S1x64_S1x64) broadcasts_S1x64_S5000x64)

/-- The block of gate logits. -/
private def gateBlock (v0 v2 : Vec Ideal S5000x64 .f32) (v5 : Vec Ideal S128x64 .f32) (v7 : Vec Ideal S1x64 .f32)
    (v13 : Vec Ideal S64x64 .f32) (v15 : Vec Ideal S1x64 .f32) (v19 : Vec Ideal S64x64 .f32) (v21 : Vec Ideal S1x64 .f32) :
    FVec Ideal S5000x64 .f32 :=
  addf (matmul (φ₁ := .f32) (φ₂ := .f32) dot_S5000x64_S64x64_S5000x64_1_0_0_1_n_n (some .fp32) (interBlock v0 v2 v5 v7 v13 v15) v19 (constant S5000x64 .f32 0x00000000#32)) (broadcastTo S5000x64 (shapeCast S1x64 v21 shapeCasts_S1x64_S1x64) broadcasts_S1x64_S5000x64)

/-- The stored value is the interaction block times the logistic of the gate block, element by element. -/
private theorem k0_pay1_eq (v0 v2 : Vec Ideal S5000x64 .f32) (v5 : Vec Ideal S128x64 .f32) (v7 : Vec Ideal S1x64 .f32)
    (v13 : Vec Ideal S64x64 .f32) (v15 : Vec Ideal S1x64 .f32) (v19 : Vec Ideal S64x64 .f32) (v21 : Vec Ideal S1x64 .f32) :
    k0_pay1 (F := Ideal) v0 v2 v5 v7 v13 v15 v19 v21
      = mulf (interBlock v0 v2 v5 v7 v13 v15) (logistic (gateBlock v0 v2 v5 v7 v13 v15 v19 v21)) := rfl

/-- The pair block at `(r, l)` is the pair row. -/
private theorem pairBlock_apply (v0 v2 : Vec Ideal S5000x64 .f32) (r : Fin 5000) (l : Fin 128) :
    pairBlock v0 v2 (ix2 r l) = Cert.EdgeGate.pairRow v0 v2 r l := by
  unfold pairBlock
  rw [shapeCast_self, shapeCast_self]
  exact concat_apply v0 v2 r l

/-- The hidden block at `(r, k)` is the hidden layer of the pair row. -/
private theorem hiddenBlock_apply (v0 v2 : Vec Ideal S5000x64 .f32) (v5 : Vec Ideal S128x64 .f32) (v7 : Vec Ideal S1x64 .f32)
    (r : Fin 5000) (k : Fin 64) :
    hiddenBlock v0 v2 v5 v7 (ix2 r k)
      = Cert.EdgeGate.hidden (Cert.EdgeGate.pairRow v0 v2 r) (fun l k => v5 (ix2 l k)) (fun k => v7 (ix2 (0 : Fin 1) k)) k := by
  unfold hiddenBlock Cert.EdgeGate.hidden
  rw [maximumf_apply, dense_128_apply (pairBlock v0 v2) v5 v7 r k _ (pairBlock_apply v0 v2 r), broadcast_apply]
  show max _ (Ideal.ofBits .f32 0x00000000#32) = max _ 0
  exact congrArg (max _) Ideal.ofBits_zero_f32

/-- The interaction block at `(r, j)` is the interaction vector of the pair row. -/
private theorem interBlock_apply (v0 v2 : Vec Ideal S5000x64 .f32) (v5 : Vec Ideal S128x64 .f32) (v7 : Vec Ideal S1x64 .f32)
    (v13 : Vec Ideal S64x64 .f32) (v15 : Vec Ideal S1x64 .f32) (r : Fin 5000) (j : Fin 64) :
    interBlock v0 v2 v5 v7 v13 v15 (ix2 r j)
      = Cert.EdgeGate.interaction (Cert.EdgeGate.pairRow v0 v2 r) (fun l k => v5 (ix2 l k)) (fun k => v7 (ix2 (0 : Fin 1) k))
          (fun l k => v13 (ix2 l k)) (fun k => v15 (ix2 (0 : Fin 1) k)) j := by
  unfold interBlock Cert.EdgeGate.interaction
  exact dense_64_apply (hiddenBlock v0 v2 v5 v7) v13 v15 r j _ (hiddenBlock_apply v0 v2 v5 v7 r)

/-- The gate block at `(r, j)` is the gate logit of the pair row. -/
private theorem gateBlock_apply (v0 v2 : Vec Ideal S5000x64 .f32) (v5 : Vec Ideal S128x64 .f32) (v7 : Vec Ideal S1x64 .f32)
    (v13 : Vec Ideal S64x64 .f32) (v15 : Vec Ideal S1x64 .f32) (v19 : Vec Ideal S64x64 .f32) (v21 : Vec Ideal S1x64 .f32)
    (r : Fin 5000) (j : Fin 64) :
    gateBlock v0 v2 v5 v7 v13 v15 v19 v21 (ix2 r j)
      = Cert.EdgeGate.dense (Cert.EdgeGate.interaction (Cert.EdgeGate.pairRow v0 v2 r) (fun l k => v5 (ix2 l k))
          (fun k => v7 (ix2 (0 : Fin 1) k)) (fun l k => v13 (ix2 l k)) (fun k => v15 (ix2 (0 : Fin 1) k)))
          (fun l k => v19 (ix2 l k)) (fun k => v21 (ix2 (0 : Fin 1) k)) j := by
  unfold gateBlock
  exact dense_64_apply (interBlock v0 v2 v5 v7 v13 v15) v19 v21 r j _ (interBlock_apply v0 v2 v5 v7 v13 v15 r)

/-- The stored value at `(r, j)` is the gated interaction of row `r`. -/
theorem payload_apply (v0 v2 : Vec Ideal S5000x64 .f32) (v5 : Vec Ideal S128x64 .f32) (v7 : Vec Ideal S1x64 .f32)
    (v13 : Vec Ideal S64x64 .f32) (v15 : Vec Ideal S1x64 .f32) (v19 : Vec Ideal S64x64 .f32) (v21 : Vec Ideal S1x64 .f32)
    (r : Fin 5000) (j : Fin 64) :
    k0_pay1 (F := Ideal) v0 v2 v5 v7 v13 v15 v19 v21 (ix2 r j)
      = Cert.EdgeGate.gatedRows v0 v2 v5 (fun k => v7 (ix2 (0 : Fin 1) k)) v13 (fun k => v15 (ix2 (0 : Fin 1) k)) v19
          (fun k => v21 (ix2 (0 : Fin 1) k)) (ix2 r j) := by
  rw [k0_pay1_eq]
  show interBlock v0 v2 v5 v7 v13 v15 (ix2 r j) * Ideal.logistic (gateBlock v0 v2 v5 v7 v13 v15 v19 v21 (ix2 r j)) = _
  rw [interBlock_apply, gateBlock_apply]
  rfl

end Cert.KernelIdeal.Payload

end
-- ==== Proof.KernelBlocks.lean ====
/-
  From the blocks to the array. Grid point `t` (of 160) holds edges `5000 t … 5000 t + 4999`: its two row blocks are
  those rows of the two gathered arrays, the parameter windows are the whole parameter arrays at every point, and what
  it writes back is those rows of the gated interactions. The 160 blocks tile the `800000 × 64` result, so after the
  region the result array is the gated interactions of all edges.
-/
import proofs.«401317_j14448269984518_4_alg».proof.Proof.Gen.KernelIdeal.Frame
import proofs.«401317_j14448269984518_4_alg».proof.Proof.KernelPayload
import proofs.«401317_j14448269984518_4_alg».proof.Proof.EdgeGate
import Idealize.ShloMosaic.Lib.Pipeline.Value
import Idealize.ShloMosaic.Lib.ValueIdx

set_option maxRecDepth 16384

noncomputable section

open scoped BigOperators

namespace Cert.EdgeGate

open Idealize.ShloMosaic Idealize.ShloMosaic.ValueIdx

/-- The gated interaction of a row depends only on that row of the two gathered arrays (and on the parameters). -/
theorem gatedRows_congr {n n' : ℕ} (xs xd : (⟨2, ![n, 64]⟩ : Shape).Idx → EReal) (xs' xd' : (⟨2, ![n', 64]⟩ : Shape).Idx → EReal)
    (W1 W1' : (⟨2, ![128, 64]⟩ : Shape).Idx → EReal) (b1 b1' : Fin 64 → EReal)
    (W2 W2' : (⟨2, ![64, 64]⟩ : Shape).Idx → EReal) (b2 b2' : Fin 64 → EReal)
    (Wg Wg' : (⟨2, ![64, 64]⟩ : Shape).Idx → EReal) (bg bg' : Fin 64 → EReal) (e : Fin n) (e' : Fin n') (j : Fin 64)
    (hs : ∀ l : Fin 64, xs (ix2 e l) = xs' (ix2 e' l)) (hd : ∀ l : Fin 64, xd (ix2 e l) = xd' (ix2 e' l))
    (hW1 : W1 = W1') (hb1 : b1 = b1') (hW2 : W2 = W2') (hb2 : b2 = b2') (hWg : Wg = Wg') (hbg : bg = bg') :
    gatedRows xs xd W1 b1 W2 b2 Wg bg (ix2 e j) = gatedRows xs' xd' W1' b1' W2' b2' Wg' bg' (ix2 e' j) := by
  subst hW1 hb1 hW2 hb2 hWg hbg
  have hp : pairRow xs xd e = pairRow xs' xd' e' := by
    funext l
    unfold pairRow
    split
    · exact hs _
    · exact hd _
  unfold gatedRows
  show gateOut (pairRow xs xd e) _ _ _ _ _ _ j = gateOut (pairRow xs' xd' e') _ _ _ _ _ _ j
  rw [hp]

end Cert.EdgeGate

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The arrays the windows read, as the region finds them, each by its literal type (windows 0 to 7 in order: the two
    gathered row arrays, then weight matrix and bias row of each of the three layers). -/
abbrev srcRows (c : Dev nD) : Vec Ideal S800000x64 .f32 := V m c (Pipeline.arrRef spec0 0)
abbrev dstRows (c : Dev nD) : Vec Ideal S800000x64 .f32 := V m c (Pipeline.arrRef spec0 1)
abbrev w1Arr (c : Dev nD) : Vec Ideal S128x64 .f32 := V m c (Pipeline.arrRef spec0 2)
abbrev b1Row (c : Dev nD) : Vec Ideal S1x64 .f32 := V m c (Pipeline.arrRef spec0 3)
abbrev w2Arr (c : Dev nD) : Vec Ideal S64x64 .f32 := V m c (Pipeline.arrRef spec0 4)
abbrev b2Row (c : Dev nD) : Vec Ideal S1x64 .f32 := V m c (Pipeline.arrRef spec0 5)
abbrev wgArr (c : Dev nD) : Vec Ideal S64x64 .f32 := V m c (Pipeline.arrRef spec0 6)
abbrev bgRow (c : Dev nD) : Vec Ideal S1x64 .f32 := V m c (Pipeline.arrRef spec0 7)

/-- The gated interactions of all 800000 edges, from the arrays the region finds. -/
def gatedAtEntry (c : Dev nD) : S800000x64.Idx → EReal :=
  Cert.EdgeGate.gatedRows (srcRows m c) (dstRows m c) (w1Arr m c) (fun k => b1Row m c (ix2 (0 : Fin 1) k)) (w2Arr m c)
    (fun k => b2Row m c (ix2 (0 : Fin 1) k)) (wgArr m c) (fun k => bgRow m c (ix2 (0 : Fin 1) k))

/-- The printed index maps over the grid: the three row windows sit at block `(t, 0)`, the parameter windows at `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem pt_lt (t : Fin cfg0.N) : t.val < 160 := Nat.lt_of_lt_of_eq (t.isLt : t.val < grid0.N) N_0

/-- Row `r` of point `t`'s block is edge `5000 t + r`. -/
def edgeOf (t : Fin cfg0.N) (r : Fin 5000) : Fin 800000 := ⟨t.val * 5000 + r.val, by have := pt_lt t; have := r.isLt; omega⟩

theorem emb0 (t : Fin cfg0.N) (r : Fin 5000) (l : Fin 64) :
    ((cfg0.win 0).blk t).view.emb (ix2 r l) = ix2 (edgeOf t r) l := by
  have hf := idx_facts t
  funext a; apply Fin.ext
  match a with
  | ⟨0, _⟩ => show win0_0.index t (0 : Fin 2) * 5000 + 1 * r.val = t.val * 5000 + r.val; omega
  | ⟨1, _⟩ => show win0_0.index t (1 : Fin 2) * 64 + 1 * l.val = l.val; omega

/-- Row `r` of point `t`'s block of window 0 is row `5000 t + r` of the window's array. -/
theorem blkread0 (A : Vec Ideal S800000x64 .f32) (t : Fin cfg0.N) (r : Fin 5000) (l : Fin 64) :
    (((cfg0.win 0).blk t).view.read (Elt Ideal) A : Vec Ideal S5000x64 .f32) (ix2 r l) = A (ix2 (edgeOf t r) l) := by
  rw [View.read_apply, emb0 t r l]
  rfl

theorem emb1 (t : Fin cfg0.N) (r : Fin 5000) (l : Fin 64) :
    ((cfg0.win 1).blk t).view.emb (ix2 r l) = ix2 (edgeOf t r) l := by
  have hf := idx_facts t
  funext a; apply Fin.ext
  match a with
  | ⟨0, _⟩ => show win0_1.index t (0 : Fin 2) * 5000 + 1 * r.val = t.val * 5000 + r.val; omega
  | ⟨1, _⟩ => show win0_1.index t (1 : Fin 2) * 64 + 1 * l.val = l.val; omega

/-- Row `r` of point `t`'s block of window 1 is row `5000 t + r` of the window's array. -/
theorem blkread1 (A : Vec Ideal S800000x64 .f32) (t : Fin cfg0.N) (r : Fin 5000) (l : Fin 64) :
    (((cfg0.win 1).blk t).view.read (Elt Ideal) A : Vec Ideal S5000x64 .f32) (ix2 r l) = A (ix2 (edgeOf t r) l) := by
  rw [View.read_apply, emb1 t r l]
  rfl

theorem emb8 (t : Fin cfg0.N) (r : Fin 5000) (l : Fin 64) :
    ((cfg0.win 8).blk t).view.emb (ix2 r l) = ix2 (edgeOf t r) l := by
  have hf := idx_facts t
  funext a; apply Fin.ext
  match a with
  | ⟨0, _⟩ => show win0_8.index t (0 : Fin 2) * 5000 + 1 * r.val = t.val * 5000 + r.val; omega
  | ⟨1, _⟩ => show win0_8.index t (1 : Fin 2) * 64 + 1 * l.val = l.val; omega

/-- Row `r` of point `t`'s block of window 8 is row `5000 t + r` of the window's array. -/
theorem blkread8 (A : Vec Ideal S800000x64 .f32) (t : Fin cfg0.N) (r : Fin 5000) (l : Fin 64) :
    (((cfg0.win 8).blk t).view.read (Elt Ideal) A : Vec Ideal S5000x64 .f32) (ix2 r l) = A (ix2 (edgeOf t r) l) := by
  rw [View.read_apply, emb8 t r l]
  rfl

theorem emb2 (t : Fin cfg0.N) (y : S128x64.Idx) : ((cfg0.win 2).blk t).view.emb y = y := by
  have hf := idx_facts t
  funext a; apply Fin.ext
  match a with
  | ⟨0, _⟩ => show win0_2.index t (0 : Fin 2) * 128 + 1 * (y 0).val = (y 0).val; omega
  | ⟨1, _⟩ => show win0_2.index t (1 : Fin 2) * 64 + 1 * (y 1).val = (y 1).val; omega

/-- Window 2's block is its whole array at every point. -/
theorem blkread2 (A : Vec Ideal S128x64 .f32) (t : Fin cfg0.N) :
    (((cfg0.win 2).blk t).view.read (Elt Ideal) A : Vec Ideal S128x64 .f32) = A := by
  funext y
  rw [View.read_apply, emb2 t y]
  rfl

theorem emb3 (t : Fin cfg0.N) (y : S1x64.Idx) : ((cfg0.win 3).blk t).view.emb y = y := by
  have hf := idx_facts t
  funext a; apply Fin.ext
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Window 3's block is its whole array at every point. -/
theorem blkread3 (A : Vec Ideal S1x64 .f32) (t : Fin cfg0.N) :
    (((cfg0.win 3).blk t).view.read (Elt Ideal) A : Vec Ideal S1x64 .f32) = A := by
  funext y
  rw [View.read_apply, emb3 t y]
  rfl

theorem emb4 (t : Fin cfg0.N) (y : S64x64.Idx) : ((cfg0.win 4).blk t).view.emb y = y := by
  have hf := idx_facts t
  funext a; apply Fin.ext
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 4's block is its whole array at every point. -/
theorem blkread4 (A : Vec Ideal S64x64 .f32) (t : Fin cfg0.N) :
    (((cfg0.win 4).blk t).view.read (Elt Ideal) A : Vec Ideal S64x64 .f32) = A := by
  funext y
  rw [View.read_apply, emb4 t y]
  rfl

theorem emb5 (t : Fin cfg0.N) (y : S1x64.Idx) : ((cfg0.win 5).blk t).view.emb y = y := by
  have hf := idx_facts t
  funext a; apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Window 5's block is its whole array at every point. -/
theorem blkread5 (A : Vec Ideal S1x64 .f32) (t : Fin cfg0.N) :
    (((cfg0.win 5).blk t).view.read (Elt Ideal) A : Vec Ideal S1x64 .f32) = A := by
  funext y
  rw [View.read_apply, emb5 t y]
  rfl

theorem emb6 (t : Fin cfg0.N) (y : S64x64.Idx) : ((cfg0.win 6).blk t).view.emb y = y := by
  have hf := idx_facts t
  funext a; apply Fin.ext
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- Window 6's block is its whole array at every point. -/
theorem blkread6 (A : Vec Ideal S64x64 .f32) (t : Fin cfg0.N) :
    (((cfg0.win 6).blk t).view.read (Elt Ideal) A : Vec Ideal S64x64 .f32) = A := by
  funext y
  rw [View.read_apply, emb6 t y]
  rfl

theorem emb7 (t : Fin cfg0.N) (y : S1x64.Idx) : ((cfg0.win 7).blk t).view.emb y = y := by
  have hf := idx_facts t
  funext a; apply Fin.ext
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Window 7's block is its whole array at every point. -/
theorem blkread7 (A : Vec Ideal S1x64 .f32) (t : Fin cfg0.N) :
    (((cfg0.win 7).blk t).view.read (Elt Ideal) A : Vec Ideal S1x64 .f32) = A := by
  funext y
  rw [View.read_apply, emb7 t y]
  rfl

/-- WHAT POINT `t` WRITES BACK: rows `5000 t … 5000 t + 4999` of the gated interactions. -/
theorem flushed8_eq (c : Dev nD) (t : Fin cfg0.N) :
    (dats m 0 c).flushed 8 t = ((cfg0.win 8).blk t).view.read (Elt Ideal) (gatedAtEntry m c) := by
  show (cfg0.win 8).cut (grid0.coords t) ((dats m 0 c).after 8 t) = _
  rw [after0_8]
  unfold out0_8
  rw [View.canon_unit_zero hz]
  simp only [View.ld_unit_zero (S := S5000x64) hz, View.ld_unit_zero (S := S128x64) hz, View.ld_unit_zero (S := S1x64) hz,
    View.ld_unit_zero (S := S64x64) hz]
  funext j
  obtain ⟨r, q, rfl⟩ : ∃ (r : Fin 5000) (q : Fin 64), j = ix2 r q := ⟨j 0, j 1, eq_ix2 j⟩
  rw [blkread8 (gatedAtEntry m c) t r q]
  show k0_pay1 (F := Ideal) (iblk m c 0 t) (iblk m c 1 t) (iblk m c 2 t) (iblk m c 3 t) (iblk m c 4 t) (iblk m c 5 t)
    (iblk m c 6 t) (iblk m c 7 t) (ix2 r q) = _
  refine (Cert.KernelIdeal.Payload.payload_apply (iblk m c 0 t) (iblk m c 1 t) (iblk m c 2 t) (iblk m c 3 t) (iblk m c 4 t)
    (iblk m c 5 t) (iblk m c 6 t) (iblk m c 7 t) r q).trans ?_
  unfold gatedAtEntry
  refine Cert.EdgeGate.gatedRows_congr (iblk m c 0 t) (iblk m c 1 t) (srcRows m c) (dstRows m c) (iblk m c 2 t) (w1Arr m c) _ _
    (iblk m c 4 t) (w2Arr m c) _ _ (iblk m c 6 t) (wgArr m c) _ _ r (edgeOf t r) q ?_ ?_ ?_ ?_ ?_ ?_ ?_ ?_
  · intro l; unfold iblk; exact blkread0 (V m c (Pipeline.arrRef spec0 0)) t r l
  · intro l; unfold iblk; exact blkread1 (V m c (Pipeline.arrRef spec0 1)) t r l
  · unfold iblk; exact blkread2 (V m c (Pipeline.arrRef spec0 2)) t
  · funext k; unfold iblk; exact congrFun (blkread3 (V m c (Pipeline.arrRef spec0 3)) t) (ix2 (0 : Fin 1) k)
  · unfold iblk; exact blkread4 (V m c (Pipeline.arrRef spec0 4)) t
  · funext k; unfold iblk; exact congrFun (blkread5 (V m c (Pipeline.arrRef spec0 5)) t) (ix2 (0 : Fin 1) k)
  · unfold iblk; exact blkread6 (V m c (Pipeline.arrRef spec0 6)) t
  · funext k; unfold iblk; exact congrFun (blkread7 (V m c (Pipeline.arrRef spec0 7)) t) (ix2 (0 : Fin 1) k)

/-- An index of the result array is in point `t`'s block iff its row lies in `[5000 t, 5000 t + 5000)`. -/
theorem mem_blk8 (t : Fin cfg0.N) (i : S800000x64.Idx) :
    i ∈ ((cfg0.win 8).blk t).view.set ↔ ∀ a : Fin 2, win0_8.index t a * S5000x64.size a ≤ (i a).val ∧ (i a).val < win0_8.index t a * S5000x64.size a + S5000x64.size a := by
  show i ∈ ((View.whole main_v9).slice (win0_8.rect t)).set ↔ _
  rw [View.set_slice_whole, Rect.mem_set_unit]
  exact Iff.rfl

/-- Every block index along the rows is some point's. -/
theorem idx_onto8 : ∀ q0 : Fin 160, ∃ t : Fin cfg0.N, win0_8.index t = ![q0.val, 0] :=
  (by decide +kernel : ∀ q0 : Fin 160, ∃ t : Fin grid0.N, win0_8.index t = ![q0.val, 0])

/-- The 160 blocks cover the result array: row `R` is in the block of point `R / 5000`. -/
theorem cover8 (i : S800000x64.Idx) : ∃ t : Fin cfg0.N, (cfg0.win 8).flush t = true ∧ i ∈ ((cfg0.win 8).blk t).view.set := by
  have hi0 : (i 0).val < 800000 := (i 0).isLt
  have hi1 : (i 1).val < 64 := (i 1).isLt
  obtain ⟨t, ht⟩ := idx_onto8 ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-- THE RESULT ARRAY after the region: the gated interactions of all edges. -/
theorem final8 (c : Dev nD) : (dats m 0 c).arrAt 8 cfg0.N = gatedAtEntry m c :=
  (dats m 0 c).arrAt_eq_of_cover 8 (gatedAtEntry m c) (fun t _ => flushed8_eq m c t) (cover8 ·)

end Cert.KernelIdeal.Blocks

end
-- ==== Proof.KernelTake.lean ====
/-
  The kernel program's host-side steps, as functions of the arrays: the row gather before the region and the mean per
  source node after it. An edge endpoint `s` is first wrapped the way array
  indexing wraps a negative index (`s + 50000` when `s < 0`), then tested against the table's rows `[0, 49999]`; the
  gathered row is kept where the test holds and replaced by a fill pattern where it fails.
-/
import proofs.«401317_j14448269984518_4_alg».proof.KernelIdeal

noncomputable section

namespace Cert.KernelIdeal.Take

open Idealize.ShloMosaic Cert.KernelIdeal

variable [Cert.KernelIdeal.Facts]
open Cert.KernelIdeal.Facts₀ Cert.KernelIdeal.Facts
variable {F : FTy → Type} [FloatOps F]

/-- Row 0 of the `2 × 800000` edge list (the source endpoints), as a vector of length 800000. -/
def edgeRow0 (x1 : IVec S2x800000 32) : IVec S800000 32 :=
  shapeCast S800000 (extractStridedSlice S1x800000 ![0, 0] x1 slices_S2x800000_S1x800000_0_0) shapeCasts_S1x800000_S800000

/-- Row 1 of the edge list (the destination endpoints). -/
def edgeRow1 (x1 : IVec S2x800000 32) : IVec S800000 32 :=
  shapeCast S800000 (extractStridedSlice S1x800000 ![1, 0] x1 slices_S2x800000_S1x800000_1_0) shapeCasts_S1x800000_S800000

/-- The wrapped endpoints as a column of start indices: `s + 50000` where `s < 0`, else `s`. -/
def wrapIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The range test of a column of start indices, spread over the 64 columns of a gathered row: `0 ≤ n ≤ 49999`. -/
def inTable (n : IVec S800000x1 32) : IVec S800000x64 1 :=
  broadcastInDim S800000x64 ![0] bcast_S800000_S800000x64_0
    (Host.reduce IntOp.andi
      (andi (cmpi .sge n (broadcastInDim S800000x1 ![] bcast_S_S800000x1 (constantI S_ 32 0#32)))
        (cmpi .sle n (broadcastInDim S800000x1 ![0, 1] bcast_S1x1_S800000x1_0_1
          (broadcastInDim S1x1 ![1] bcast_S1_S1x1_1 (constantI S1 32 49999#32)))))
      (constantI S_ 1 1#1) reducesTo_S800000x1_S800000_d1 h_S_)

/-- The plain gather of the table's rows at the wrapped endpoints (start indices are clamped by the gather itself). -/
def takeRows (x0 : FVec F S50000x64 .f32) (s : IVec S800000 32) : FVec F S800000x64 .f32 :=
  Host.gather gather_S50000x64_S800000x1_S800000x64_1_0_n_n_0_1_164 x0 (wrapIdx s)

/-- The gather with its range test: the gathered row where the wrapped endpoint is a row of the table, the fill
    pattern elsewhere. -/
def takeFill (x0 : FVec F S50000x64 .f32) (s : IVec S800000 32) : FVec F S800000x64 .f32 :=
  select (inTable (wrapIdx s)) (takeRows x0 s)
    (broadcastInDim S800000x64 ![] bcast_S_S800000x64 (constant S_ .f32 0x7FC00000#32))

/-- The mean over each source node's edges of the rows of `g`: the rows scatter-added onto their source nodes, divided
    by the number of edges of the node, or by one where the node has none. -/
def pooled (g : FVec F S800000x64 .f32) (s : IVec S800000 32) : FVec F S50000x64 .f32 :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 s) g)
    (broadcastInDim S50000x64 ![0, 1] bcast_S50000x1_S50000x64_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 s)
            (broadcastInDim S800000 ![] bcast_S_S800000 (constant S_ .f32 0x3F800000#32)))
          (broadcastInDim S50000 ![] bcast_S_S50000 (constant S_ .f32 0x3F800000#32)))))

end Cert.KernelIdeal.Take

end
-- ==== Proof.KernelEntry.lean ====
/-
  What the region finds in the arrays its windows read, as functions of the program's arguments: the two gathered row
  arrays (the guarded gathers of the table at the edge list's two rows), the three bias vectors laid out as `1 × 64`
  rows, and the source endpoints themselves (which the scatter after the region reads again).
-/
import proofs.«401317_j14448269984518_4_alg».proof.Proof.Gen.KernelIdeal.Frame
import proofs.«401317_j14448269984518_4_alg».proof.Proof.KernelTake
import Idealize.ShloMosaic.Lib.StableHlo.Run

noncomputable section

namespace Cert.KernelIdeal.Entry

open Idealize.ShloMosaic Idealize.ShloMosaic.TcCoe Idealize.SL.Sem Idealize.ShloMosaic.StableHlo
open Cert.KernelIdeal Cert.KernelIdeal.Gen Cert.KernelIdeal.Take

variable {F : FTy → Type} [FloatOps F]
variable (m : (ℓ : Loc nD τ sig) → Buf (Elt F) ℓ)

set_option maxRecDepth 65536 in
set_option maxHeartbeats 8000000 in
/-- The source endpoints, as the region and the lines after it find them: row 0 of the edge list. -/
theorem entry_src (c : Dev nD) :
    (V m c main_v1 : S800000.Idx → BitVec 32) = edgeRow0 (m ((c : Thread nD τ).loc main_arg1)) := by
  dsimp only [V, V0]
  simp only [hostOps0, hostOps0_1, hostOps0_2, hostOps0_3, List.flatten_cons, List.flatten_nil, List.append_nil, List.cons_append, List.nil_append]
  after_results_simp
  rfl

set_option maxRecDepth 65536 in
set_option maxHeartbeats 8000000 in
/-- Window 0's array: the guarded gather of the table at the source endpoints. -/
theorem entry_srcRows (c : Dev nD) :
    (V m c main_v4 : S800000x64.Idx → Elt F .f32)
      = takeFill (m ((c : Thread nD τ).loc main_arg0)) (edgeRow0 (m ((c : Thread nD τ).loc main_arg1))) := by
  dsimp only [V, V0]
  simp only [hostOps0, hostOps0_1, hostOps0_2, hostOps0_3, List.flatten_cons, List.flatten_nil, List.append_nil, List.cons_append, List.nil_append]
  after_results_simp
  simp only [TRef.toBuf, TRef.ofBuf, cast_eq]
  unfold takeFill takeRows inTable wrapIdx edgeRow0
  rfl

set_option maxRecDepth 65536 in
set_option maxHeartbeats 8000000 in
/-- Window 1's array: the guarded gather of the table at the destination endpoints. -/
theorem entry_dstRows (c : Dev nD) :
    (V m c main_v5 : S800000x64.Idx → Elt F .f32)
      = takeFill (m ((c : Thread nD τ).loc main_arg0)) (edgeRow1 (m ((c : Thread nD τ).loc main_arg1))) := by
  dsimp only [V, V0]
  simp only [hostOps0, hostOps0_1, hostOps0_2, hostOps0_3, List.flatten_cons, List.flatten_nil, List.append_nil, List.cons_append, List.nil_append]
  after_results_simp
  simp only [TRef.toBuf, TRef.ofBuf, cast_eq]
  unfold takeFill takeRows inTable wrapIdx edgeRow1
  rfl

set_option maxRecDepth 65536 in
set_option maxHeartbeats 8000000 in
/-- Window 3's array: the first bias vector as a `1 × 64` row. -/
theorem entry_b1 (c : Dev nD) :
    (V m c main_v6 : S1x64.Idx → Elt F .f32) = shapeCast S1x64 (m ((c : Thread nD τ).loc main_arg3)) shapeCasts_S64_S1x64 := by
  dsimp only [V, V0]
  simp only [hostOps0, hostOps0_1, hostOps0_2, hostOps0_3, List.flatten_cons, List.flatten_nil, List.append_nil, List.cons_append, List.nil_append]
  after_results_simp
  rfl

set_option maxRecDepth 65536 in
set_option maxHeartbeats 8000000 in
/-- Window 5's array: the second bias vector as a `1 × 64` row. -/
theorem entry_b2 (c : Dev nD) :
    (V m c main_v7 : S1x64.Idx → Elt F .f32) = shapeCast S1x64 (m ((c : Thread nD τ).loc main_arg5)) shapeCasts_S64_S1x64 := by
  dsimp only [V, V0]
  simp only [hostOps0, hostOps0_1, hostOps0_2, hostOps0_3, List.flatten_cons, List.flatten_nil, List.append_nil, List.cons_append, List.nil_append]
  after_results_simp
  rfl

set_option maxRecDepth 65536 in
set_option maxHeartbeats 8000000 in
/-- Window 7's array: the gate's bias vector as a `1 × 64` row. -/
theorem entry_bg (c : Dev nD) :
    (V m c main_v8 : S1x64.Idx → Elt F .f32) = shapeCast S1x64 (m ((c : Thread nD τ).loc main_arg7)) shapeCasts_S64_S1x64 := by
  dsimp only [V, V0]
  simp only [hostOps0, hostOps0_1, hostOps0_2, hostOps0_3, List.flatten_cons, List.flatten_nil, List.append_nil, List.cons_append, List.nil_append]
  after_results_simp
  rfl

end Cert.KernelIdeal.Entry

end
-- ==== Proof.KernelPool.lean ====
/-
  After the region: the gated interactions are added up per source node, the edges per source node are counted, and
  each node's sum is divided by its count (at least one). The result of the program is that quotient array, as one
  function of the region's result array and of the source endpoints.
-/
import proofs.«401317_j14448269984518_4_alg».proof.Proof.Gen.KernelIdeal.Frame
import proofs.«401317_j14448269984518_4_alg».proof.Proof.KernelTake
import Idealize.ShloMosaic.Lib.StableHlo.Run

noncomputable section

namespace Cert.KernelIdeal.Pool

open Idealize.ShloMosaic Idealize.ShloMosaic.TcCoe Idealize.SL.Sem Idealize.ShloMosaic.StableHlo
open Cert.KernelIdeal Cert.KernelIdeal.Gen Cert.KernelIdeal.Take

variable {F : FTy → Type} [FloatOps F]

variable (m : (ℓ : Loc nD τ sig) → Buf (Elt F) ℓ)

set_option maxRecDepth 65536 in
set_option maxHeartbeats 8000000 in
/-- The program's result after the lines that follow the region. -/
theorem result_eq (c : Dev nD) :
    (Pipeline.afterTail₀ cfgs (dats m) 0 (V0 m) [hostOps1] c main_v21 : S50000x64.Idx → Elt F .f32)
      = pooled ((dats m 0 c).arrAt 8 cfg0.N) (V m c main_v1) := by
  unfold Pipeline.afterTail₀
  show StableHlo.after hostOps1 _ (Proc.devRef .tc main_v21) = _
  simp only [hostOps1]
  after_results_simp
  have h9 : Pipeline.withArrays (cfgs 0).spec c (V0 m c) (fun w => (dats m 0 c).arrAt w (cfgs 0).N) (Proc.devRef .tc main_v9)
      = (dats m 0 c).arrAt 8 cfg0.N :=
    Pipeline.withArrays_arr spec0 launch0.win.arr_inj c _ _ 8
  have h1 : Pipeline.withArrays (cfgs 0).spec c (V0 m c) (fun w => (dats m 0 c).arrAt w (cfgs 0).N) (Proc.devRef .tc main_v1)
      = V m c main_v1 :=
    Pipeline.withArrays_of_ne _ c (V0 m c) _ main_v1 (by exact (by decide : ∀ w, Pipeline.arrRef spec0 w ≠ main_v1))
  rw [h9, h1]
  unfold pooled
  rfl

end Cert.KernelIdeal.Pool

end
-- ==== Proof.LibReduceAllOnes.lean ====
/-
  The converse of reading a conjunction back: a reduction by `and` of an array of one-bit words that are all 1, from the
  initial value 1, is 1 at every index of the result. (That a reduction which came out 1 met only 1s is the other
  direction.) Stated for any shapes and axes.
-/
import Idealize.ShloMosaic.Lib.ReduceAll

namespace Cert.LibReduceAllOnes

open Idealize.ShloMosaic

/-- A left fold by `and` over `i1` words that starts at 1 and meets only 1s comes out 1. -/
theorem foldl_andi_of_forall_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    exact foldl_andi_of_forall_one f l _ (IntOp.andi_eq_one.2 ⟨hi, h a (List.mem_cons_self ..)⟩)
      (fun n hn => h n (List.mem_cons_of_mem _ hn))

/-- A reduction by `and` from the initial value 1 of an array whose every element is 1 is 1 at every result index. -/
theorem reduce_andi_of_forall_one {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_of_forall_one x _ _ hi (fun n _ => hx n)

end Cert.LibReduceAllOnes
-- ==== Proof.KernelTakeInRange.lean ====
/-
  Where every endpoint is a row of the table the range test never fails: the guarded gather is the plain gather.
-/
import proofs.«401317_j14448269984518_4_alg».proof.Proof.KernelTake
import proofs.«401317_j14448269984518_4_alg».proof.Proof.LibReduceAllOnes
import Idealize.ShloMosaic.Lib.ReduceAll
import Idealize.ShloMosaic.Lib.ValueIdx
import Idealize.ShloMosaic.Lib.Pipeline.Value

noncomputable section

namespace Cert.KernelIdeal.Take

open Idealize.ShloMosaic Idealize.ShloMosaic.ValueIdx Cert.KernelIdeal Cert.LibReduceAllOnes

variable [Cert.KernelIdeal.Facts]
open Cert.KernelIdeal.Facts₀ Cert.KernelIdeal.Facts
variable {F : FTy → Type} [FloatOps F]

/-- What holds of every element of an array holds of every element of its broadcast: a broadcast only re-reads. -/
private theorem broadcastInDim_forall {s t : Shape} {α : Type} (dims : Fin s.rank → Fin t.rank) (h : s.BroadcastsInDim t dims)
    (x : s.Idx → α) (P : α → Prop) (hx : ∀ e, P (x e)) (j : t.Idx) : P (broadcastInDim t dims h x j) :=
  hx _

/-- A nonnegative signed word is not wrapped: `w + 50000` is taken only where `w < 0`. -/
private theorem wrap_of_nonneg (w : BitVec 32) (h : IntOp.cmpi .sge w 0#32 = 1#1) :
    Scalar.select (IntOp.cmpi .slt w 0#32) (IntOp.addi w 50000#32) w = w := by
  have hn : ¬ IntOp.cmpi .slt w 0#32 = 1#1 := by
    rw [IntOp.cmpi_slt]
    have := IntOp.cmpi_sge.1 h
    omega
  rw [eq_zero_of_ne_one hn, select_zero]

/-- Endpoints in `[0, 49999]` stay in `[0, 49999]` after the wrap, at every index of the column. -/
theorem wrapIdx_inRange (s : IVec S800000 32)
    (hs : ∀ e : S800000.Idx, IntOp.cmpi .sge (s e) 0#32 = 1#1 ∧ IntOp.cmpi .sle (s e) 49999#32 = 1#1) (k : S800000x1.Idx) :
    IntOp.cmpi .sge (wrapIdx s k) 0#32 = 1#1 ∧ IntOp.cmpi .sle (wrapIdx s k) 49999#32 = 1#1 := by
  unfold wrapIdx
  refine broadcastInDim_forall _ _ _
    (fun w => IntOp.cmpi .sge w 0#32 = 1#1 ∧ IntOp.cmpi .sle w 49999#32 = 1#1) (fun e => ?_) k
  show IntOp.cmpi .sge (Scalar.select (IntOp.cmpi .slt (s e) 0#32) (IntOp.addi (s e) 50000#32) (s e)) 0#32 = 1#1
    ∧ IntOp.cmpi .sle (Scalar.select (IntOp.cmpi .slt (s e) 0#32) (IntOp.addi (s e) 50000#32) (s e)) 49999#32 = 1#1
  rw [wrap_of_nonneg _ (hs e).1]
  exact hs e

/-- The range test of a column of start indices all in `[0, 49999]` is 1 everywhere. -/
theorem inTable_eq_one (n : IVec S800000x1 32)
    (hn : ∀ k : S800000x1.Idx, IntOp.cmpi .sge (n k) 0#32 = 1#1 ∧ IntOp.cmpi .sle (n k) 49999#32 = 1#1) (i : S800000x64.Idx) :
    inTable n i = 1#1 := by
  unfold inTable
  refine broadcastInDim_forall _ _ _ (fun b => b = 1#1) (fun j => ?_) i
  refine reduce_andi_of_forall_one _ _ _ _ j rfl (fun k => ?_)
  exact IntOp.andi_eq_one.2 (hn k)

/-- With every endpoint in `[0, 49999]` (as signed words) the guarded gather keeps every gathered row. -/
theorem takeFill_eq_takeRows (x0 : FVec F S50000x64 .f32) (s : IVec S800000 32)
    (hs : ∀ e : S800000.Idx, IntOp.cmpi .sge (s e) 0#32 = 1#1 ∧ IntOp.cmpi .sle (s e) 49999#32 = 1#1) :
    takeFill x0 s = takeRows x0 s := by
  unfold takeFill
  funext i
  rw [select_apply, inTable_eq_one _ (wrapIdx_inRange s hs) i, select_one]

end Cert.KernelIdeal.Take

end
-- ==== Proof.ClosedForm.lean ====
/-
  The whole computation as one function of the eight argument arrays: gather the table's rows at the wrapped endpoints
  of both rows of the edge list, form every edge's gated interaction, and average per source node.
-/
import proofs.«401317_j14448269984518_4_alg».proof.Proof.KernelTake
import proofs.«401317_j14448269984518_4_alg».proof.Proof.EdgeGate
import Idealize.ShloMosaic.Lib.ValueIdx

noncomputable section

namespace Cert.ClosedForm

open Idealize.ShloMosaic Idealize.ShloMosaic.ValueIdx Cert.KernelIdeal Cert.KernelIdeal.Take

variable [Cert.KernelIdeal.Facts]

/-- Every edge's gated interaction, from the argument arrays. -/
def gatedOfArgs (x0 : FVec Ideal S50000x64 .f32) (x1 : IVec S2x800000 32) (x2 : FVec Ideal S128x64 .f32)
    (x3 : FVec Ideal S64 .f32) (x4 : FVec Ideal S64x64 .f32) (x5 : FVec Ideal S64 .f32) (x6 : FVec Ideal S64x64 .f32)
    (x7 : FVec Ideal S64 .f32) : FVec Ideal S800000x64 .f32 :=
  Cert.EdgeGate.gatedRows (takeRows (F := Ideal) x0 (edgeRow0 x1)) (takeRows (F := Ideal) x0 (edgeRow1 x1)) x2
    (fun k => x3 (ix1 k)) x4 (fun k => x5 (ix1 k)) x6 (fun k => x7 (ix1 k))

/-- The program's result, from the argument arrays. -/
def result (x0 : FVec Ideal S50000x64 .f32) (x1 : IVec S2x800000 32) (x2 : FVec Ideal S128x64 .f32)
    (x3 : FVec Ideal S64 .f32) (x4 : FVec Ideal S64x64 .f32) (x5 : FVec Ideal S64 .f32) (x6 : FVec Ideal S64x64 .f32)
    (x7 : FVec Ideal S64 .f32) : FVec Ideal S50000x64 .f32 :=
  pooled (F := Ideal) (gatedOfArgs x0 x1 x2 x3 x4 x5 x6 x7) (edgeRow0 x1)

end Cert.ClosedForm

end
-- ==== Proof.KernelWhole.lean ====
/-
  The kernel program's result as the closed form of its arguments, for edge lists whose entries are rows of the table.
  The pieces: the lines before the region gather the rows (the guarded gather, which under the range hypothesis is the
  plain one) and lay the bias vectors out as rows; the region turns them into the gated interactions of all edges; the
  lines after it average per source node.
-/
import proofs.«401317_j14448269984518_4_alg».proof.Proof.KernelBlocks
import proofs.«401317_j14448269984518_4_alg».proof.Proof.KernelEntry
import proofs.«401317_j14448269984518_4_alg».proof.Proof.KernelPool
import proofs.«401317_j14448269984518_4_alg».proof.Proof.KernelTakeInRange
import proofs.«401317_j14448269984518_4_alg».proof.Proof.ClosedForm
import Idealize.ShloMosaic.Lib.Pipeline.Value
import Idealize.ShloMosaic.Lib.ValueIdx

set_option maxRecDepth 16384

noncomputable section

namespace Cert.KernelIdeal.Whole

open Idealize.ShloMosaic Idealize.ShloMosaic.TcCoe Idealize.ShloMosaic.ValueIdx Idealize.SL.Sem
open Cert.KernelIdeal Cert.KernelIdeal.Gen Cert.KernelIdeal.Take

variable (m : (ℓ : Loc nD τ sig) → Buf (Elt Ideal) ℓ) (ρ : Dev nD → PrngReg)

/-- Every entry of the edge list is a row number of the table, `0 ≤ idx ≤ 49999` as signed words. -/
def InRange : Prop :=
  ∀ (c : Dev nD) (i : S2x800000.Idx),
    IntOp.cmpi .sge ((m ((c : Thread nD τ).loc main_arg1) : S2x800000.Idx → BitVec 32) i) 0#32 = 1#1
      ∧ IntOp.cmpi .sle ((m ((c : Thread nD τ).loc main_arg1) : S2x800000.Idx → BitVec 32) i) 49999#32 = 1#1

/-- An entry of a row of the edge list is an entry of the edge list. -/
theorem edgeRow0_mem (x1 : IVec S2x800000 32) (e : S800000.Idx) : ∃ i, edgeRow0 x1 e = x1 i := ⟨_, rfl⟩
theorem edgeRow1_mem (x1 : IVec S2x800000 32) (e : S800000.Idx) : ∃ i, edgeRow1 x1 e = x1 i := ⟨_, rfl⟩

/-- A bias vector laid out as a `1 × 64` row, read at column `k`. -/
theorem biasRow_apply (x : FVec Ideal S64 .f32) (k : Fin 64) :
    shapeCast S1x64 x shapeCasts_S64_S1x64 (ix2 (0 : Fin 1) k) = x (ix1 k) :=
  shapeCast_apply x shapeCasts_S64_S1x64 (ix2 (0 : Fin 1) k) (ix1 k)
    (by rewrite [Shape.rowMajor_val_one, Shape.rowMajor_val_two]; show k.val = 0 * 64 + k.val; omega)

/-- The gated interactions the region computes, as a function of the arguments. -/
theorem gatedAtEntry_eq (c : Dev nD) (h : InRange m) :
    Blocks.gatedAtEntry m c = Cert.ClosedForm.gatedOfArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e0 : Blocks.srcRows m c = takeRows (F := Ideal) (m ((c : Thread nD τ).loc main_arg0)) (edgeRow0 (m ((c : Thread nD τ).loc main_arg1))) :=
    (Entry.entry_srcRows m c).trans (takeFill_eq_takeRows _ _ fun e => by
      obtain ⟨i, hi⟩ := edgeRow0_mem (m ((c : Thread nD τ).loc main_arg1)) e
      rw [hi]; exact h c i)
  have e1 : Blocks.dstRows m c = takeRows (F := Ideal) (m ((c : Thread nD τ).loc main_arg0)) (edgeRow1 (m ((c : Thread nD τ).loc main_arg1))) :=
    (Entry.entry_dstRows m c).trans (takeFill_eq_takeRows _ _ fun e => by
      obtain ⟨i, hi⟩ := edgeRow1_mem (m ((c : Thread nD τ).loc main_arg1)) e
      rw [hi]; exact h c i)
  have e2 : Blocks.w1Arr m c = (m ((c : Thread nD τ).loc main_arg2)) := V_main_arg2 m c
  have e3 : (fun k : Fin 64 => Blocks.b1Row m c (ix2 (0 : Fin 1) k)) = fun k => (m ((c : Thread nD τ).loc main_arg3)) (ix1 k) :=
    funext fun k => (congrFun (Entry.entry_b1 m c) (ix2 (0 : Fin 1) k)).trans (biasRow_apply _ k)
  have e4 : Blocks.w2Arr m c = (m ((c : Thread nD τ).loc main_arg4)) := V_main_arg4 m c
  have e5 : (fun k : Fin 64 => Blocks.b2Row m c (ix2 (0 : Fin 1) k)) = fun k => (m ((c : Thread nD τ).loc main_arg5)) (ix1 k) :=
    funext fun k => (congrFun (Entry.entry_b2 m c) (ix2 (0 : Fin 1) k)).trans (biasRow_apply _ k)
  have e6 : Blocks.wgArr m c = (m ((c : Thread nD τ).loc main_arg6)) := V_main_arg6 m c
  have e7 : (fun k : Fin 64 => Blocks.bgRow m c (ix2 (0 : Fin 1) k)) = fun k => (m ((c : Thread nD τ).loc main_arg7)) (ix1 k) :=
    funext fun k => (congrFun (Entry.entry_bg m c) (ix2 (0 : Fin 1) k)).trans (biasRow_apply _ k)
  unfold Blocks.gatedAtEntry Cert.ClosedForm.gatedOfArgs
  rw [e0, e1, e2, e3, e4, e5, e6, e7]

/-- The program's result buffer after the run's last line, as a function of the arguments. -/
theorem result_closed (c : Dev nD) (h : InRange m) :
    (Pipeline.afterTail₀ cfgs (dats m) 0 (V0 m) [hostOps1] c main_v21 : S50000x64.Idx → EReal)
      = Cert.ClosedForm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Pool.result_eq m c, Blocks.final8 m c, Entry.entry_src m c, gatedAtEntry_eq m c h]
  rfl

/-- THE RUN, READ: every weakly fair execution of the program ends with its result at the closed form of the arguments,
    the arguments unchanged. -/
theorem run (h : InRange m) :
    θ_run defs (onTc (τ := τ) (main (F := Ideal))) ⟨m, fun _ => 0, ρ⟩ (fun r => ∀ c : Dev nD,
      r.2.mem ((c.tc : Thread nD τ).loc main_v21) = Cert.ClosedForm.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ hp c =>
    ⟨((hp c).2 main_v21 (Pipeline.mem_restRefs_of main_v21 (by decide) (by decide))).trans (result_closed m c h),
      (((hp c).2 main_arg0 (Pipeline.mem_restRefs_of main_arg0 (by decide) (by decide))).trans (W_main_arg0 m (dats m) c)),
      (((hp c).2 main_arg1 (Pipeline.mem_restRefs_of main_arg1 (by decide) (by decide))).trans (W_main_arg1 m (dats m) c)),
      ((hp c).1 2).trans (((dats m 0 c).arrAt_in 2 rfl _).trans ((A_eq m c 2).trans (V_main_arg2 m c))),
      (((hp c).2 main_arg3 (Pipeline.mem_restRefs_of main_arg3 (by decide) (by decide))).trans (W_main_arg3 m (dats m) c)),
      ((hp c).1 4).trans (((dats m 0 c).arrAt_in 4 rfl _).trans ((A_eq m c 4).trans (V_main_arg4 m c))),
      (((hp c).2 main_arg5 (Pipeline.mem_restRefs_of main_arg5 (by decide) (by decide))).trans (W_main_arg5 m (dats m) c)),
      ((hp c).1 6).trans (((dats m 0 c).arrAt_in 6 rfl _).trans ((A_eq m c 6).trans (V_main_arg6 m c))),
      (((hp c).2 main_arg7 (Pipeline.mem_restRefs_of main_arg7 (by decide) (by decide))).trans (W_main_arg7 m (dats m) c))⟩)
    (run_main m ρ)

end Cert.KernelIdeal.Whole

end
-- ==== Proof.RefGated.lean ====
/-
  The reference's gated interactions, read at an element: row `e`, column `j` of its `800000 × 64` product array is the
  gated interaction of the pair row made of its two gathers' rows `e`.
-/
import proofs.«401317_j14448269984518_4_alg».proof.Proof.Gen.ReferenceIdeal.Read
import proofs.«401317_j14448269984518_4_alg».proof.Proof.EdgeGate
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

open scoped BigOperators

namespace Cert.ReferenceIdeal.Gated

open Idealize.ShloMosaic Idealize.ShloMosaic.ValueIdx Cert.ReferenceIdeal Cert.ReferenceIdeal.Gen Cert.ReferenceIdeal.Read

/-- Two row arrays joined along the column axis, read at row `e`, column `l`: the pair row. -/
private theorem pair_eq (xs xd : (⟨S800000x64, .f32⟩ : BufTy).Contents (Elt Ideal)) (e : Fin 800000) (l : Fin 128) :
    concatenate S800000x128 1 [⟨S800000x64, xs⟩, ⟨S800000x64, xd⟩]
        concatenates_S800000x64_S800000x64_S800000x128_d1 (ix2 e l)
      = Cert.EdgeGate.pairRow xs xd e l := by
  unfold Cert.EdgeGate.pairRow
  by_cases h : l.val < 64
  · rw [dif_pos h]
    exact concatenate_pair_apply_left 1 xs xd _ (ix2 e l) rfl (ix2 e ⟨l.val, h⟩)
      (fun b => by match b with | ⟨0, _⟩ => rfl | ⟨1, _⟩ => rfl)
  · rw [dif_neg h]
    exact concatenate_pair_apply_right 1 xs xd _ (ix2 e l) rfl rfl
      (ix2 e ⟨l.val - 64, by have := l.isLt; omega⟩)
      (fun b hb => by match b with | ⟨0, _⟩ => rfl | ⟨1, _⟩ => exact absurd rfl hb)
      (by show l.val - 64 + 64 = l.val; omega)

/-- The reference's concatenated array at row `e`, column `l` is the pair row of its two gathers. -/
private theorem v18_eq (x0 : (⟨S50000x64, .f32⟩ : BufTy).Contents (Elt Ideal)) (x1 : (⟨S2x800000, .i32⟩ : BufTy).Contents (Elt Ideal))
    (e : Fin 800000) (l : Fin 128) :
    val_main_v18 (F := Ideal) x0 x1 (ix2 e l)
      = Cert.EdgeGate.pairRow (val_main_v10 (F := Ideal) x0 x1) (val_main_v17 (F := Ideal) x0 x1) e l := by
  unfold val_main_v18
  generalize val_main_v10 (F := Ideal) x0 x1 = xs
  generalize val_main_v17 (F := Ideal) x0 x1 = xd
  exact pair_eq xs xd e l

/-- The reference's hidden layer at row `e`, column `k`. -/
private theorem hidden_eq (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (e : Fin 800000) (k : Fin 64) :
    val_main_v23 (F := Ideal) x0 x1 x2 x3 (ix2 e k)
      = Cert.EdgeGate.hidden (Cert.EdgeGate.pairRow (val_main_v10 (F := Ideal) x0 x1) (val_main_v17 (F := Ideal) x0 x1) e)
          (fun l k => x2 (ix2 l k)) (fun k => x3 (ix1 k)) k := by
  have hl : ∀ l : Fin 128, lidx_main_v19 (ix2 e k) l = ix2 e l := fun l =>
    funext fun a => by match a with | ⟨0, _⟩ => rfl | ⟨1, _⟩ => rfl
  have hr : ∀ l : Fin 128, ridx_main_v19 (ix2 e k) l = ix2 l k := fun l =>
    funext fun a => by match a with | ⟨0, _⟩ => rfl | ⟨1, _⟩ => rfl
  have hb : idx_main_v20 (idx_main_v21 (ix2 e k)) = ix1 k :=
    funext fun a => by match a with | ⟨0, _⟩ => rfl
  rw [val_main_v23_apply, val_main_v22_apply, val_main_v19_apply, val_main_v21_apply, val_main_v20_apply,
    val_main_call0_v0_apply, val_main_call0_cst_apply]
  simp only [hl, hr, hb, v18_eq, Ideal.addf_def, Ideal.maximumf_def, Ideal.ofBits_def, Ideal.ofBits_zero_f32]
  rfl

/-- The reference's interaction layer at row `e`, column `j`. -/
private theorem interaction_eq (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (e : Fin 800000) (j : Fin 64) :
    val_main_v27 (F := Ideal) x0 x1 x2 x3 x4 x5 (ix2 e j)
      = Cert.EdgeGate.interaction (Cert.EdgeGate.pairRow (val_main_v10 (F := Ideal) x0 x1) (val_main_v17 (F := Ideal) x0 x1) e)
          (fun l k => x2 (ix2 l k)) (fun k => x3 (ix1 k)) (fun l k => x4 (ix2 l k)) (fun k => x5 (ix1 k)) j := by
  have hl : ∀ k : Fin 64, lidx_main_v24 (ix2 e j) k = ix2 e k := fun k =>
    funext fun a => by match a with | ⟨0, _⟩ => rfl | ⟨1, _⟩ => rfl
  have hr : ∀ k : Fin 64, ridx_main_v24 (ix2 e j) k = ix2 k j := fun k =>
    funext fun a => by match a with | ⟨0, _⟩ => rfl | ⟨1, _⟩ => rfl
  have hb : idx_main_v25 (idx_main_v26 (ix2 e j)) = ix1 j :=
    funext fun a => by match a with | ⟨0, _⟩ => rfl
  rw [val_main_v27_apply, val_main_v24_apply, val_main_v26_apply, val_main_v25_apply]
  simp only [hl, hr, hb, hidden_eq, Ideal.addf_def]
  rfl

/-- The reference's product array is `gatedRows` of its two gathers. -/
theorem ref_gated (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v38 (F := Ideal) x0 x1 x2 x3 x4 x5 x6 x7
      = Cert.EdgeGate.gatedRows (val_main_v10 (F := Ideal) x0 x1) (val_main_v17 (F := Ideal) x0 x1) x2 (fun k => x3 (ix1 k)) x4
          (fun k => x5 (ix1 k)) x6 (fun k => x7 (ix1 k)) := by
  funext i
  obtain ⟨e, j, rfl⟩ : ∃ (e : Fin 800000) (j : Fin 64), i = ix2 e j := ⟨i 0, i 1, eq_ix2 i⟩
  have hl : ∀ k : Fin 64, lidx_main_v28 (ix2 e j) k = ix2 e k := fun k =>
    funext fun a => by match a with | ⟨0, _⟩ => rfl | ⟨1, _⟩ => rfl
  have hr : ∀ k : Fin 64, ridx_main_v28 (ix2 e j) k = ix2 k j := fun k =>
    funext fun a => by match a with | ⟨0, _⟩ => rfl | ⟨1, _⟩ => rfl
  have hb : idx_main_v29 (idx_main_v30 (ix2 e j)) = ix1 j :=
    funext fun a => by match a with | ⟨0, _⟩ => rfl
  rw [val_main_v38_apply, val_main_v37_apply, val_main_v36_apply, val_main_cst_3_apply, val_main_v35_apply,
    val_main_v34_apply, val_main_cst_apply, val_main_v33_apply, val_main_v32_apply, val_main_v31_apply,
    val_main_v28_apply, val_main_v30_apply, val_main_v29_apply]
  simp only [hl, hr, hb, interaction_eq, Ideal.addf_def, Ideal.mulf_def, Ideal.hostDivf_def, Ideal.hostUnary_exp_def,
    Ideal.hostNegf_def, Ideal.negf_def, Ideal.ofBits_def, Ideal.ofBits_one_f32]
  rfl

end Cert.ReferenceIdeal.Gated

end
-- ==== Proof.RefResult.lean ====
/-
  The reference program's result is the closed form: its two gathers are the plain gathers at the wrapped endpoints,
  its product array is the gated interactions of those (the stage-by-stage reading), and its last lines are the mean
  per source node.
-/
import proofs.«401317_j14448269984518_4_alg».proof.Proof.Gen.ReferenceIdeal.Read
import proofs.«401317_j14448269984518_4_alg».proof.Proof.RefGated
import proofs.«401317_j14448269984518_4_alg».proof.Proof.ClosedForm
import proofs.«401317_j14448269984518_4_alg».proof.Proof.Gen.KernelIdeal

noncomputable section

namespace Cert.ReferenceIdeal.Result

open Idealize.ShloMosaic Idealize.ShloMosaic.ValueIdx Cert.ReferenceIdeal Cert.ReferenceIdeal.Gen Cert.ReferenceIdeal.Read

/-- The reference's source endpoints are row 0 of the edge list. -/
private theorem v1_eq (x1 : (⟨S2x800000, .i32⟩ : BufTy).Contents (Elt Ideal)) :
    val_main_v1 (F := Ideal) x1 = Cert.KernelIdeal.Take.edgeRow0 x1 := rfl

/-- The reference's destination endpoints are row 1 of the edge list. -/
private theorem v3_eq (x1 : (⟨S2x800000, .i32⟩ : BufTy).Contents (Elt Ideal)) :
    val_main_v3 (F := Ideal) x1 = Cert.KernelIdeal.Take.edgeRow1 x1 := rfl

/-- The reference's first gather is the plain gather of the table's rows at the wrapped source endpoints. -/
private theorem v10_eq (x0 : (⟨S50000x64, .f32⟩ : BufTy).Contents (Elt Ideal)) (x1 : (⟨S2x800000, .i32⟩ : BufTy).Contents (Elt Ideal)) :
    val_main_v10 (F := Ideal) x0 x1
      = Cert.KernelIdeal.Take.takeRows (F := Ideal) x0 (Cert.KernelIdeal.Take.edgeRow0 x1) := by
  unfold val_main_v10 val_main_v9 val_main_v8 val_main_v7 val_main_v6 val_main_v5 val_main_v4 val_main_c val_main_c_0
    Cert.KernelIdeal.Take.takeRows Cert.KernelIdeal.Take.wrapIdx
  rw [v1_eq]
  rfl

/-- The reference's second gather is the plain gather at the wrapped destination endpoints. -/
private theorem v17_eq (x0 : (⟨S50000x64, .f32⟩ : BufTy).Contents (Elt Ideal)) (x1 : (⟨S2x800000, .i32⟩ : BufTy).Contents (Elt Ideal)) :
    val_main_v17 (F := Ideal) x0 x1
      = Cert.KernelIdeal.Take.takeRows (F := Ideal) x0 (Cert.KernelIdeal.Take.edgeRow1 x1) := by
  unfold val_main_v17 val_main_v16 val_main_v15 val_main_v14 val_main_v13 val_main_v12 val_main_v11 val_main_c_1 val_main_c_2
    Cert.KernelIdeal.Take.takeRows Cert.KernelIdeal.Take.wrapIdx
  rw [v3_eq]
  rfl

/-- The reference's last lines over any product array `g`: the mean of its rows per source node. -/
private theorem tail_eq (x1 : (⟨S2x800000, .i32⟩ : BufTy).Contents (Elt Ideal)) (g : (⟨S800000x64, .f32⟩ : BufTy).Contents (Elt Ideal)) :
    Host.divf (F := Ideal) (φ := .f32)
        (Host.scatterAdd (F := Ideal) (φ := .f32) scatter_S50000x64_S800000x1_S800000x64_1_0_0_1 (val_main_v39 (F := Ideal))
          (val_main_v40 (F := Ideal) x1) g)
        (val_main_v49 (F := Ideal) x1)
      = Cert.KernelIdeal.Take.pooled (F := Ideal) g (Cert.KernelIdeal.Take.edgeRow0 x1) := by
  unfold val_main_v49 val_main_v48 val_main_v47 val_main_v46 val_main_v45 val_main_v44 val_main_v43 val_main_v42
    val_main_v40 val_main_v39 val_main_cst_4 val_main_cst_5 val_main_cst_6 val_main_cst_7 Cert.KernelIdeal.Take.pooled
  rw [v1_eq]
  rfl

/-- The reference's last stage, as a function of the arguments, is the closed form. -/
theorem ref_result (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x64, .f32⟩ : BufTy).Contents (Elt Ideal)) (x7 : (⟨S64, .f32⟩ : BufTy).Contents (Elt Ideal)) :
    val_main_v50 (F := Ideal) x0 x1 x2 x3 x4 x5 x6 x7 = Cert.ClosedForm.result x0 x1 x2 x3 x4 x5 x6 x7 := by
  unfold val_main_v50 val_main_v41 Cert.ClosedForm.result Cert.ClosedForm.gatedOfArgs
  rw [Cert.ReferenceIdeal.Gated.ref_gated, v10_eq, v17_eq]
  exact tail_eq x1 _

end Cert.ReferenceIdeal.Result

end
-- ==== Proof.lean ====
/-
  The certificate of the gated edge interaction with mean pooling per source node.

  Both programs gather the rows of a 50000-row table at the two endpoints of each of 800000 edges, run every edge's
  pair of rows through three dense layers with a logistic gate, and average the 64 outputs over the edges of each
  source node. The kernel program gathers with a range test (a row outside the table is replaced by a fill pattern),
  computes the gated interactions in 160 blocks of 5000 edges, and pools on the host; the reference does everything on
  the host and gathers with clamped start indices. Where an endpoint is not a row of the table the two gathers differ,
  so the claim is stated for edge lists whose entries lie in `[0, 49999]`; there the range test never fails, both
  gathers read the same rows, and the two results are one function of the arguments (`Cert.ClosedForm.result`): the
  sums are formed in the same grouping on both sides, so no finiteness is used.
-/
import proofs.«401317_j14448269984518_4_alg».proof.Defs
import proofs.«401317_j14448269984518_4_alg».proof.Proof.Gen.Kernel
import proofs.«401317_j14448269984518_4_alg».proof.Proof.Gen.Kernel.Skeleton
import proofs.«401317_j14448269984518_4_alg».proof.Proof.Gen.Kernel.Launch
import proofs.«401317_j14448269984518_4_alg».proof.Proof.Gen.Kernel.Points
import proofs.«401317_j14448269984518_4_alg».proof.Proof.Gen.Kernel.Frame
import proofs.«401317_j14448269984518_4_alg».proof.Proof.Gen.KernelIdeal
import proofs.«401317_j14448269984518_4_alg».proof.Proof.Gen.KernelIdeal.Skeleton
import proofs.«401317_j14448269984518_4_alg».proof.Proof.Gen.KernelIdeal.Launch
import proofs.«401317_j14448269984518_4_alg».proof.Proof.Gen.KernelIdeal.Points
import proofs.«401317_j14448269984518_4_alg».proof.Proof.Gen.KernelIdeal.Frame
import proofs.«401317_j14448269984518_4_alg».proof.Proof.Gen.ReferenceIdeal
import proofs.«401317_j14448269984518_4_alg».proof.Proof.Gen.Pre_finite_inputs
import proofs.«401317_j14448269984518_4_alg».proof.Proof.Gen.ReferenceIdeal.Run
import proofs.«401317_j14448269984518_4_alg».proof.Proof.Gen.ReferenceIdeal.Read
import proofs.«401317_j14448269984518_4_alg».proof.Proof.IndexDomain
import proofs.«401317_j14448269984518_4_alg».proof.Proof.KernelWhole
import proofs.«401317_j14448269984518_4_alg».proof.Proof.RefResult
import Idealize.ShloMosaic.Adequacy
import Idealize.ShloMosaic.Init

noncomputable section

namespace Cert.Proof

open Idealize.ShloMosaic Idealize.ShloMosaic.TcCoe Idealize.SL.Sem

/-- The three programs run, fault-free, and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Under the precondition the edge list's entries are rows of the table. -/
theorem inRange_of_pre (m : (ℓ : Loc Cert.KernelIdeal.nD Cert.KernelIdeal.τ Cert.KernelIdeal.sig) → Buf (Elt Ideal) ℓ) (h : Cert.Pre_KernelIdeal m) :
    Cert.KernelIdeal.Whole.InRange m := fun c i =>
  Cert.Pre_finite_inputs.Domain.index_range (F := Ideal) _ _ _ _ _ _ _ _ (h c) i

/-- At the ideal values both programs end with the closed form of the (agreeing) arguments. -/
theorem algebraic : Cert.algebraic_KernelIdeal_ReferenceIdeal := by
  intro m ρ m' ρ' hpre hagree
  refine ⟨fun c => Cert.ClosedForm.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ (inRange_of_pre m hpre), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v50_eq, Cert.ReferenceIdeal.Result.ref_result, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
